-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 108
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S1600000x1, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S1600000x1, .f32⟩
  | .hbm, ⟨94, _⟩ => ⟨S1600000x64, .f32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.BitsHostSide.lean ====
/-
  The host side of the run of `Kernel`'s @main around its one pallas_call.

  @main is fourteen host operations (the source and target rows of the edge list; the in-degree of every node as a
  scatter-add of ones over the targets, plus one for the self-loop; its inverse square root), then the pallas_call that
  projects the node features by the two weight matrices, then eighty-six host operations (for each projection: the rows
  gathered at the sources, scaled by the two end points' factors, scatter-added at the targets; plus the self-loop term;
  plus the bias). Here: the buffer contents the region is entered with (`V0`, the launch memory after the first fourteen
  operations), @main as "host lines, the region, host lines", the three things the later lines must satisfy to run behind
  the region (they touch unscoped TensorCore buffers only, allocate nothing, and write no array the pipeline stages),
  and that no host line writes an argument array. Everything is stated at any float instance `F`.
-/
import proofs.«109742_j53120155517008_1_alg».proof.Proof.Gen.Kernel.Launch
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The contents the region is entered with -/

/-- Core `c`'s TensorCore buffers when the pallas_call is entered: the launch memory after the fourteen host operations
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem head_fresh : (hostOps0 : List (HloOp τ sig (Elt F))).Forall fun op => op.fresh = ∅ := by
  simp only [List.Forall]; repeat' constructor
set_option maxHeartbeats 4000000 in
theorem tail_fresh : (hostOps1 : List (HloOp τ sig (Elt F))).Forall fun op => op.fresh = ∅ := by
  simp only [List.Forall]; repeat' constructor

set_option maxHeartbeats 40000000 in
/-- @main is the first fourteen host lines, the region, and the region's continuation by the later eighty-six. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact head_fresh) main_chain

/-! ## The later lines behind the region -/

/-- The later lines touch the pipeline's arrays and the buffers that bypass it, nothing else. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

set_option maxHeartbeats 4000000 in
/-- Each later line writes its own result buffer, which is none of the five arrays the pipeline stages (the node
    features, the two weight matrices, the two projections). -/
theorem tail_keeps_each : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals (intro w; refine StableHlo.devRef_ne_of_ne ?_; revert w; decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_each) op hop

/-! ## No host line writes an argument -/

/-- A buffer none of the first fourteen lines writes is entered as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- None of the first fourteen lines writes an argument array. -/
theorem head_keeps_args : ∀ b ∈ ([main_arg0, main_arg1, main_arg2, main_arg3, main_arg4, main_arg5] : List (Ref sig .tc)),
    (hostOps0 : List (HloOp τ sig (Elt F))).Forall fun op => Proc.devRef .tc b ∉ op.writes := by
  intro b hb
  simp only [hostOps0, List.Forall, StableHlo.nullary_writes, StableHlo.unary_writes, StableHlo.binary_writes,
    StableHlo.ternary_writes, StableHlo.reshape_writes, Finset.mem_singleton]
  simp only [List.mem_cons, List.mem_nil_iff, or_false] at hb
  rcases hb with rfl | rfl | rfl | rfl | rfl | rfl
  all_goals (repeat' apply And.intro)
  all_goals exact StableHlo.devRef_ne_of_ne (by decide)

theorem V_main_arg0 (c : Dev nD) : V m c main_arg0 = m ((c : Thread nD τ).loc main_arg0) :=
  V_of_unwritten m c _ (head_keeps_args _ (by simp))
theorem V_main_arg1 (c : Dev nD) : V m c main_arg1 = m ((c : Thread nD τ).loc main_arg1) :=
  V_of_unwritten m c _ (head_keeps_args _ (by simp))
theorem V_main_arg2 (c : Dev nD) : V m c main_arg2 = m ((c : Thread nD τ).loc main_arg2) :=
  V_of_unwritten m c _ (head_keeps_args _ (by simp))
theorem V_main_arg3 (c : Dev nD) : V m c main_arg3 = m ((c : Thread nD τ).loc main_arg3) :=
  V_of_unwritten m c _ (head_keeps_args _ (by simp))
theorem V_main_arg4 (c : Dev nD) : V m c main_arg4 = m ((c : Thread nD τ).loc main_arg4) :=
  V_of_unwritten m c _ (head_keeps_args _ (by simp))
theorem V_main_arg5 (c : Dev nD) : V m c main_arg5 = m ((c : Thread nD τ).loc main_arg5) :=
  V_of_unwritten m c _ (head_keeps_args _ (by simp))

set_option maxHeartbeats 4000000 in
/-- None of the later eighty-six lines writes the bias vectors or the edge list (the three arguments the pipeline does
    not stage). -/
theorem tail_keeps_args : ∀ b ∈ ([main_arg2, main_arg4, main_arg5] : List (Ref sig .tc)),
    (hostOps1 : List (HloOp τ sig (Elt F))).Forall fun op => Proc.devRef .tc b ∉ op.writes := by
  intro b hb
  simp only [hostOps1, List.Forall, StableHlo.nullary_writes, StableHlo.unary_writes, StableHlo.binary_writes,
    StableHlo.ternary_writes, StableHlo.reshape_writes, Finset.mem_singleton]
  simp only [List.mem_cons, List.mem_nil_iff, or_false] at hb
  rcases hb with rfl | rfl | rfl
  all_goals (repeat' apply And.intro)
  all_goals exact StableHlo.devRef_ne_of_ne (by decide)

/-- What a buffer that bypasses the region holds at the end of @main, when no later line writes it: what the region was
    entered with. -/
theorem tail_of_unwritten {U' : Type} [URA U'] (dats : (p : Fin 1) → (c : Dev nD) → Dat τ (Elt F) Unit ℕ U' ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

end Cert.Kernel.Around

end
-- ==== Proof.BitsBody.lean ====
/-
  The body of `Kernel`'s one kernel function, run once on whole staging buffers.

  The body loads a block of 5000 rows of the node features and the two 128×64 weight matrices, and stores into each of
  its two output buffers, whole, the product of the block with one of the matrices (the formats narrowed to bf16 first,
  accumulated from zero in f32). It also loads each output buffer before storing into it and uses neither value. So after
  the body each output buffer holds one piece covering it: the first the product with the first matrix (`projMu`), the
  second the product with the second (`projLogstd`); the three input buffers are as they were.
-/
import proofs.«109742_j53120155517008_1_alg».proof.Proof.Gen.Kernel.Launch
import proofs.«109742_j53120155517008_1_alg».proof.Proof.Gen.Kernel.Skeleton
import proofs.«109742_j53120155517008_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each buffer whole -/

abbrev featRect : Rect S5000x128 := Rect.unit (s := S5000x128) ![0, 0] S5000x128.size inb_S5000x128_S5000x128_0_0
abbrev weightRect : Rect S128x64 := Rect.unit (s := S128x64) ![0, 0] S128x64.size inb_S128x64_S128x64_0_0
abbrev projRect : Rect S5000x64 := Rect.unit (s := S5000x64) ![0, 0] S5000x64.size inb_S5000x64_S5000x64_0_0

/-! ## What the body leaves in each output buffer -/

/-- The first output buffer after the body: its one store, the feature block times the first weight matrix. -/
def projMu (x : Vec F S5000x128 .f32) (w : Vec F S128x64 .f32) : Vec F S5000x64 .f32 :=
  View.canon [⟨projRect, k0_pay2 (View.ld x featRect) (View.ld w weightRect)⟩]

/-- The second output buffer after the body: its one store, the feature block times the second weight matrix. -/
def projLogstd (x : Vec F S5000x128 .f32) (w : Vec F S128x64 .f32) : Vec F S5000x64 .f32 :=
  View.canon [⟨projRect, k0_pay3 (View.ld x featRect) (View.ld w weightRect)⟩]

/-- One whole-buffer store covers the buffer. -/
theorem proj_cover (p : Vec F S5000x64 .f32) (y : S5000x64.Idx) :
    ∃ pc ∈ ([⟨projRect, p⟩] : List (View.Piece (Elt F) S5000x64 .f32)), y ∈ pc.1.set :=
  View.cover_of_tiled [⟨projRect, p⟩] S5000x64.size (by rfl) y

/-! ## The body's triple -/

set_option maxHeartbeats 2000000 in
/-- On whole staging buffers, the three inputs' at contents `x`, `wMu`, `wLs` and the two outputs' at anything, the body
    runs to a continuation holding the inputs' as they were and the outputs' at the two products. -/
theorem sound_kernel (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S128x64 .f32) (harg3 : arg3.IsWhole) (arg4 : Memref sig .tc .vmem S5000x64 .f32) (harg4 : arg4.IsWhole)
    (arg5 : Memref sig .tc .vmem S5000x64 .f32) (harg5 : arg5.IsWhole)
    (x : Vec F S5000x128 .f32) (wMu wLs : Vec F S128x64 .f32) (K : PUnit → sProp 𝕄) :
    iprop(owns (c : Thread nD τ) arg1 fullShare x ∗ owns (c : Thread nD τ) arg2 fullShare wMu ∗ owns (c : Thread nD τ) arg3 fullShare wLs
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare wMu ∗ owns (c : Thread nD τ) arg3 fullShare wLs
            ∗ owns (c : Thread nD τ) arg4 fullShare (projMu x wMu) ∗ owns (c : Thread nD τ) arg5 fullShare (projLogstd x wLs)) -∗ K ⟨⟩))
      ⊢ wp frame (wpE (defs₀ (F := F)) Variants.none c none) E (cc0__dual_linear_kernel i arg1 harg1 arg2 harg2 arg3 harg3 arg4 harg4 arg5 harg5) K := by
  simp only [cc0__dual_linear_kernel_eq_skeleton]; unfold cc0__dual_linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (proj_cover _)
  iexists _; isplitr
  swap; · iexact H4
  ipureintro
  exact View.read_writes_eq_canon _ _ _ (proj_cover _)

end Cert.Kernel.Around

end
-- ==== Proof.BitsFrame.lean ====
/-
  The run of `Kernel`'s @main and its frame: every weakly fair execution terminates, nothing faults, the six argument
  arrays end as launched.

  The pipeline stages five arrays: the node features in blocks of 5000 rows (block `t` at grid point `t`, twenty points),
  the two weight matrices whole (one block, fetched at the first point and kept), and the two projections, written back
  in blocks of 5000 rows. The proof data say what each staging buffer holds after the body at point `t`: an input its
  block of the array as the region found it, an output the body's product of the feature block with a weight matrix.
  The run is the library's frame run of a region continued by host lines; its post names every staged array after the
  run and every other unscoped buffer as the later lines leave it, from which the six arguments are read back.
-/
import proofs.«109742_j53120155517008_1_alg».proof.Proof.BitsHostSide
import proofs.«109742_j53120155517008_1_alg».proof.Proof.BitsBody

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its block at every point. -/
theorem before_feat_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The first weight window's staging buffer holds the matrix at every point, fetched there or not (its block index
    never moves). -/
theorem before_wMu_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The second weight window's likewise. -/
theorem before_wLs_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block, the
    two outputs' at the products of the feature block with the weight matrices; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projMu (iblk m c 0 t) (iblk m c 1 t)
    | ⟨4, _⟩ => projLogstd (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_feat (c : Dev nD) (t : Fin cfg0.N) : (dats m 0 c).after 0 t = iblk m c 0 t := by dsimp only [dats]
theorem after_wMu (c : Dev nD) (t : Fin cfg0.N) : (dats m 0 c).after 1 t = iblk m c 1 t := by dsimp only [dats]
theorem after_wLs (c : Dev nD) (t : Fin cfg0.N) : (dats m 0 c).after 2 t = iblk m c 2 t := by dsimp only [dats]
theorem after_mu (c : Dev nD) (t : Fin cfg0.N) : (dats m 0 c).after 3 t = projMu (iblk m c 0 t) (iblk m c 1 t) := by dsimp only [dats]
theorem after_ls (c : Dev nD) (t : Fin cfg0.N) : (dats m 0 c).after 4 t = projLogstd (iblk m c 0 t) (iblk m c 2 t) := by dsimp only [dats]

theorem before_feat (c : Dev nD) (t : Fin cfg0.N) (d) : (dats m 0 c).before 0 t d = iblk m c 0 t :=
  before_feat_of m (dats m 0 c) (A_eq m c 0) (after_feat m c) t d
theorem before_wMu (c : Dev nD) (t : Fin cfg0.N) (d) : (dats m 0 c).before 1 t d = iblk m c 1 t :=
  before_wMu_of m (dats m 0 c) (A_eq m c 1) (after_wMu m c) t d
theorem before_wLs (c : Dev nD) (t : Fin cfg0.N) (d) : (dats m 0 c).before 2 t d = iblk m c 2 t :=
  before_wLs_of m (dats m 0 c) (A_eq m c 2) (after_wLs m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_wMu, before_wLs]
  rw [show (dats m 0 c).Φ t.succ = (dats m 0 c).Φ t.castSucc from rfl,
    show (dats m 0 c).owesAt () t.succ = (dats m 0 c).owesAt () t.castSucc from rfl,
    after_feat, after_wMu, after_wLs, after_mu, after_ls]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option maxHeartbeats 40000000 in
set_option backward.isDefEq.respectTransparency.types false in
/-- Every weakly fair execution of @main terminates, and at the end every staged array holds what the library computes
    from the proof data and every other unscoped buffer what the eighty-six later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-! ## The frame -/

set_option maxHeartbeats 40000000 in
/-- In a final state of the run the six arguments are as launched: the three the pipeline stages are inputs, whose arrays
    it leaves at their entry contents, which are the launch contents since no earlier line writes them; the other three
    bypass the region and no line writes them. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans
     ((tail_of_unwritten m (dats m) c main_arg2 (by decide) (tail_keeps_args _ (by simp))).trans (V_main_arg2 m c)),
   ((h c).1 2).trans (((dats m 0 c).arrAt_in 2 rfl _).trans ((A_eq m c 2).trans (V_main_arg3 m c))),
   ((h c).2 main_arg4 (Pipeline.mem_restRefs_of main_arg4 (by decide) (by decide))).trans
     ((tail_of_unwritten m (dats m) c main_arg4 (by decide) (tail_keeps_args _ (by simp))).trans (V_main_arg4 m c)),
   ((h c).2 main_arg5 (Pipeline.mem_restRefs_of main_arg5 (by decide) (by decide))).trans
     ((tail_of_unwritten m (dats m) c main_arg5 (by decide) (tail_keeps_args _ (by simp))).trans (V_main_arg5 m c))⟩

set_option maxHeartbeats 40000000 in
/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m r h c) (run_main m ρ)

end Cert.Kernel.Around

end
-- ==== Proof.IdealHostSide.lean ====
/-
  The host side of the run of `KernelIdeal`'s @main around its one pallas_call.

  @main is fourteen host operations (the source and target rows of the edge list; the in-degree of every node as a
  scatter-add of ones over the targets, plus one for the self-loop; its inverse square root), then the pallas_call that
  projects the node features by the two weight matrices, then eighty-six host operations (for each projection: the rows
  gathered at the sources, scaled by the two end points' factors, scatter-added at the targets; plus the self-loop term;
  plus the bias). Here: the buffer contents the region is entered with (`V0`, the launch memory after the first fourteen
  operations), @main as "host lines, the region, host lines", the three things the later lines must satisfy to run behind
  the region (they touch unscoped TensorCore buffers only, allocate nothing, and write no array the pipeline stages),
  and that no host line writes an argument array. Everything is stated at any float instance `F`.
-/
import proofs.«109742_j53120155517008_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The contents the region is entered with -/

/-- Core `c`'s TensorCore buffers when the pallas_call is entered: the launch memory after the fourteen host operations
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem head_fresh : (hostOps0 : List (HloOp τ sig (Elt F))).Forall fun op => op.fresh = ∅ := by
  simp only [List.Forall]; repeat' constructor
set_option maxHeartbeats 4000000 in
theorem tail_fresh : (hostOps1 : List (HloOp τ sig (Elt F))).Forall fun op => op.fresh = ∅ := by
  simp only [List.Forall]; repeat' constructor

set_option maxHeartbeats 40000000 in
/-- @main is the first fourteen host lines, the region, and the region's continuation by the later eighty-six. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact head_fresh) main_chain

/-! ## The later lines behind the region -/

/-- The later lines touch the pipeline's arrays and the buffers that bypass it, nothing else. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

set_option maxHeartbeats 4000000 in
/-- Each later line writes its own result buffer, which is none of the five arrays the pipeline stages (the node
    features, the two weight matrices, the two projections). -/
theorem tail_keeps_each : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, StableHlo.reshape_writes, Finset.mem_singleton]
  repeat' apply And.intro
  all_goals (intro w; refine StableHlo.devRef_ne_of_ne ?_; revert w; decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps_each) op hop

/-! ## No host line writes an argument -/

/-- A buffer none of the first fourteen lines writes is entered as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- None of the first fourteen lines writes an argument array. -/
theorem head_keeps_args : ∀ b ∈ ([main_arg0, main_arg1, main_arg2, main_arg3, main_arg4, main_arg5] : List (Ref sig .tc)),
    (hostOps0 : List (HloOp τ sig (Elt F))).Forall fun op => Proc.devRef .tc b ∉ op.writes := by
  intro b hb
  simp only [hostOps0, List.Forall, StableHlo.nullary_writes, StableHlo.unary_writes, StableHlo.binary_writes,
    StableHlo.ternary_writes, StableHlo.reshape_writes, Finset.mem_singleton]
  simp only [List.mem_cons, List.mem_nil_iff, or_false] at hb
  rcases hb with rfl | rfl | rfl | rfl | rfl | rfl
  all_goals (repeat' apply And.intro)
  all_goals exact StableHlo.devRef_ne_of_ne (by decide)

theorem V_main_arg0 (c : Dev nD) : V m c main_arg0 = m ((c : Thread nD τ).loc main_arg0) :=
  V_of_unwritten m c _ (head_keeps_args _ (by simp))
theorem V_main_arg1 (c : Dev nD) : V m c main_arg1 = m ((c : Thread nD τ).loc main_arg1) :=
  V_of_unwritten m c _ (head_keeps_args _ (by simp))
theorem V_main_arg2 (c : Dev nD) : V m c main_arg2 = m ((c : Thread nD τ).loc main_arg2) :=
  V_of_unwritten m c _ (head_keeps_args _ (by simp))
theorem V_main_arg3 (c : Dev nD) : V m c main_arg3 = m ((c : Thread nD τ).loc main_arg3) :=
  V_of_unwritten m c _ (head_keeps_args _ (by simp))
theorem V_main_arg4 (c : Dev nD) : V m c main_arg4 = m ((c : Thread nD τ).loc main_arg4) :=
  V_of_unwritten m c _ (head_keeps_args _ (by simp))
theorem V_main_arg5 (c : Dev nD) : V m c main_arg5 = m ((c : Thread nD τ).loc main_arg5) :=
  V_of_unwritten m c _ (head_keeps_args _ (by simp))

set_option maxHeartbeats 4000000 in
/-- None of the later eighty-six lines writes the bias vectors or the edge list (the three arguments the pipeline does
    not stage). -/
theorem tail_keeps_args : ∀ b ∈ ([main_arg2, main_arg4, main_arg5] : List (Ref sig .tc)),
    (hostOps1 : List (HloOp τ sig (Elt F))).Forall fun op => Proc.devRef .tc b ∉ op.writes := by
  intro b hb
  simp only [hostOps1, List.Forall, StableHlo.nullary_writes, StableHlo.unary_writes, StableHlo.binary_writes,
    StableHlo.ternary_writes, StableHlo.reshape_writes, Finset.mem_singleton]
  simp only [List.mem_cons, List.mem_nil_iff, or_false] at hb
  rcases hb with rfl | rfl | rfl
  all_goals (repeat' apply And.intro)
  all_goals exact StableHlo.devRef_ne_of_ne (by decide)

/-- What a buffer that bypasses the region holds at the end of @main, when no later line writes it: what the region was
    entered with. -/
theorem tail_of_unwritten {U' : Type} [URA U'] (dats : (p : Fin 1) → (c : Dev nD) → Dat τ (Elt F) Unit ℕ U' ℕ (cfgs p) c) (c : Dev nD)
    (b : Ref sig .tc) (hb : ∀ w, Pipeline.arrRef spec0 w ≠ b)
    (h : (hostOps1 : List (HloOp τ sig (Elt F))).Forall fun op => Proc.devRef .tc b ∉ op.writes) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

end Cert.KernelIdeal.Around

end
-- ==== Proof.IdealBody.lean ====
/-
  The body of `KernelIdeal`'s one kernel function, run once on whole staging buffers.

  The body loads a block of 5000 rows of the node features and the two 128×64 weight matrices, and stores into each of
  its two output buffers, whole, the product of the block with one of the matrices (the formats narrowed to bf16 first,
  accumulated from zero in f32). It also loads each output buffer before storing into it and uses neither value. So after
  the body each output buffer holds one piece covering it: the first the product with the first matrix (`projMu`), the
  second the product with the second (`projLogstd`); the three input buffers are as they were.
-/
import proofs.«109742_j53120155517008_1_alg».proof.Proof.Gen.KernelIdeal.Launch
import proofs.«109742_j53120155517008_1_alg».proof.Proof.Gen.KernelIdeal.Skeleton
import proofs.«109742_j53120155517008_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each buffer whole -/

abbrev featRect : Rect S5000x128 := Rect.unit (s := S5000x128) ![0, 0] S5000x128.size inb_S5000x128_S5000x128_0_0
abbrev weightRect : Rect S128x64 := Rect.unit (s := S128x64) ![0, 0] S128x64.size inb_S128x64_S128x64_0_0
abbrev projRect : Rect S5000x64 := Rect.unit (s := S5000x64) ![0, 0] S5000x64.size inb_S5000x64_S5000x64_0_0

/-! ## What the body leaves in each output buffer -/

/-- The first output buffer after the body: its one store, the feature block times the first weight matrix. -/
def projMu (x : Vec F S5000x128 .f32) (w : Vec F S128x64 .f32) : Vec F S5000x64 .f32 :=
  View.canon [⟨projRect, k0_pay2 (View.ld x featRect) (View.ld w weightRect)⟩]

/-- The second output buffer after the body: its one store, the feature block times the second weight matrix. -/
def projLogstd (x : Vec F S5000x128 .f32) (w : Vec F S128x64 .f32) : Vec F S5000x64 .f32 :=
  View.canon [⟨projRect, k0_pay3 (View.ld x featRect) (View.ld w weightRect)⟩]

/-- One whole-buffer store covers the buffer. -/
theorem proj_cover (p : Vec F S5000x64 .f32) (y : S5000x64.Idx) :
    ∃ pc ∈ ([⟨projRect, p⟩] : List (View.Piece (Elt F) S5000x64 .f32)), y ∈ pc.1.set :=
  View.cover_of_tiled [⟨projRect, p⟩] S5000x64.size (by rfl) y

/-! ## The body's triple -/

set_option maxHeartbeats 2000000 in
/-- On whole staging buffers, the three inputs' at contents `x`, `wMu`, `wLs` and the two outputs' at anything, the body
    runs to a continuation holding the inputs' as they were and the outputs' at the two products. -/
theorem sound_kernel (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S128x64 .f32) (harg3 : arg3.IsWhole) (arg4 : Memref sig .tc .vmem S5000x64 .f32) (harg4 : arg4.IsWhole)
    (arg5 : Memref sig .tc .vmem S5000x64 .f32) (harg5 : arg5.IsWhole)
    (x : Vec F S5000x128 .f32) (wMu wLs : Vec F S128x64 .f32) (K : PUnit → sProp 𝕄) :
    iprop(owns (c : Thread nD τ) arg1 fullShare x ∗ owns (c : Thread nD τ) arg2 fullShare wMu ∗ owns (c : Thread nD τ) arg3 fullShare wLs
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare wMu ∗ owns (c : Thread nD τ) arg3 fullShare wLs
            ∗ owns (c : Thread nD τ) arg4 fullShare (projMu x wMu) ∗ owns (c : Thread nD τ) arg5 fullShare (projLogstd x wLs)) -∗ K ⟨⟩))
      ⊢ wp frame (wpE (defs₀ (F := F)) Variants.none c none) E (cc0__dual_linear_kernel i arg1 harg1 arg2 harg2 arg3 harg3 arg4 harg4 arg5 harg5) K := by
  simp only [cc0__dual_linear_kernel_eq_skeleton]; unfold cc0__dual_linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (proj_cover _)
  iexists _; isplitr
  swap; · iexact H4
  ipureintro
  exact View.read_writes_eq_canon _ _ _ (proj_cover _)

end Cert.KernelIdeal.Around

end
-- ==== Proof.IdealFrame.lean ====
/-
  The run of `KernelIdeal`'s @main and its frame: every weakly fair execution terminates, nothing faults, the six argument
  arrays end as launched.

  The pipeline stages five arrays: the node features in blocks of 5000 rows (block `t` at grid point `t`, twenty points),
  the two weight matrices whole (one block, fetched at the first point and kept), and the two projections, written back
  in blocks of 5000 rows. The proof data say what each staging buffer holds after the body at point `t`: an input its
  block of the array as the region found it, an output the body's product of the feature block with a weight matrix.
  The run is the library's frame run of a region continued by host lines; its post names every staged array after the
  run and every other unscoped buffer as the later lines leave it, from which the six arguments are read back.
-/
import proofs.«109742_j53120155517008_1_alg».proof.Proof.IdealHostSide
import proofs.«109742_j53120155517008_1_alg».proof.Proof.IdealBody

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its block at every point. -/
theorem before_feat_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The first weight window's staging buffer holds the matrix at every point, fetched there or not (its block index
    never moves). -/
theorem before_wMu_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The second weight window's likewise. -/
theorem before_wLs_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block, the
    two outputs' at the products of the feature block with the weight matrices; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projMu (iblk m c 0 t) (iblk m c 1 t)
    | ⟨4, _⟩ => projLogstd (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_feat (c : Dev nD) (t : Fin cfg0.N) : (dats m 0 c).after 0 t = iblk m c 0 t := by dsimp only [dats]
theorem after_wMu (c : Dev nD) (t : Fin cfg0.N) : (dats m 0 c).after 1 t = iblk m c 1 t := by dsimp only [dats]
theorem after_wLs (c : Dev nD) (t : Fin cfg0.N) : (dats m 0 c).after 2 t = iblk m c 2 t := by dsimp only [dats]
theorem after_mu (c : Dev nD) (t : Fin cfg0.N) : (dats m 0 c).after 3 t = projMu (iblk m c 0 t) (iblk m c 1 t) := by dsimp only [dats]
theorem after_ls (c : Dev nD) (t : Fin cfg0.N) : (dats m 0 c).after 4 t = projLogstd (iblk m c 0 t) (iblk m c 2 t) := by dsimp only [dats]

theorem before_feat (c : Dev nD) (t : Fin cfg0.N) (d) : (dats m 0 c).before 0 t d = iblk m c 0 t :=
  before_feat_of m (dats m 0 c) (A_eq m c 0) (after_feat m c) t d
theorem before_wMu (c : Dev nD) (t : Fin cfg0.N) (d) : (dats m 0 c).before 1 t d = iblk m c 1 t :=
  before_wMu_of m (dats m 0 c) (A_eq m c 1) (after_wMu m c) t d
theorem before_wLs (c : Dev nD) (t : Fin cfg0.N) (d) : (dats m 0 c).before 2 t d = iblk m c 2 t :=
  before_wLs_of m (dats m 0 c) (A_eq m c 2) (after_wLs m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_wMu, before_wLs]
  rw [show (dats m 0 c).Φ t.succ = (dats m 0 c).Φ t.castSucc from rfl,
    show (dats m 0 c).owesAt () t.succ = (dats m 0 c).owesAt () t.castSucc from rfl,
    after_feat, after_wMu, after_wLs, after_mu, after_ls]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option maxHeartbeats 40000000 in
set_option backward.isDefEq.respectTransparency.types false in
/-- Every weakly fair execution of @main terminates, and at the end every staged array holds what the library computes
    from the proof data and every other unscoped buffer what the eighty-six later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := hmain m Variants.none) (hA := A_eq m) (hΦ := fun _ _ => rfl)

/-! ## The frame -/

set_option maxHeartbeats 40000000 in
/-- In a final state of the run the six arguments are as launched: the three the pipeline stages are inputs, whose arrays
    it leaves at their entry contents, which are the launch contents since no earlier line writes them; the other three
    bypass the region and no line writes them. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans
     ((tail_of_unwritten m (dats m) c main_arg2 (by decide) (tail_keeps_args _ (by simp))).trans (V_main_arg2 m c)),
   ((h c).1 2).trans (((dats m 0 c).arrAt_in 2 rfl _).trans ((A_eq m c 2).trans (V_main_arg3 m c))),
   ((h c).2 main_arg4 (Pipeline.mem_restRefs_of main_arg4 (by decide) (by decide))).trans
     ((tail_of_unwritten m (dats m) c main_arg4 (by decide) (tail_keeps_args _ (by simp))).trans (V_main_arg4 m c)),
   ((h c).2 main_arg5 (Pipeline.mem_restRefs_of main_arg5 (by decide) (by decide))).trans
     ((tail_of_unwritten m (dats m) c main_arg5 (by decide) (tail_keeps_args _ (by simp))).trans (V_main_arg5 m c))⟩

set_option maxHeartbeats 40000000 in
/-- Every weakly fair execution of @main terminates, nothing faulting, with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_of_post m r h c) (run_main m ρ)

end Cert.KernelIdeal.Around

end
-- ==== Proof.Projection.lean ====
/-
  What the two projection arrays hold after the run of the idealized kernel: the whole products of the node features
  with the two weight matrices.

  At the ideal values a narrowing of the float format is the identity and the vector unit's product accumulated from zero
  is the plain product, so at grid point t the body leaves in an output buffer the matrix whose entry (p, q) is
  ∑ₖ xb(p, k) · w(k, q), with xb the t-th block of 5000 rows of the features. Row p of block t is row 5000·t + p of the
  array, so that entry is entry (5000·t + p, q) of the product of the whole feature matrix with the weight matrix: what
  point t writes back is block t of one whole-array function. The twenty blocks tile the 100000 rows, so the array ends
  holding that function.
-/
import proofs.«109742_j53120155517008_1_alg».proof.Proof.IdealFrame
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.Around

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The plain product, whole and by blocks -/

/-- The feature matrix times a weight matrix. -/
def proj (X : FVec Ideal S100000x128 .f32) (W : FVec Ideal S128x64 .f32) : FVec Ideal S100000x64 .f32 :=
  Host.dotGeneral (DotDims.plain 100000 128 64) none X W

theorem proj_apply (X : FVec Ideal S100000x128 .f32) (W : FVec Ideal S128x64 .f32) (r : Fin 100000) (q : Fin 64) :
    proj X W (ix2 r q) = ∑ k : Fin 128, X (ix2 r k) * W (ix2 k q) :=
  StackMember.dotGeneral_plain_apply none X W r q

/-- Entry (p, q) of the body's first product. -/
theorem pay_mu_apply (x : Vec Ideal S5000x128 .f32) (w : Vec Ideal S128x64 .f32) (p : Fin 5000) (q : Fin 64) :
    k0_pay2 (F := Ideal) x w (ix2 p q) = ∑ k : Fin 128, x (ix2 p k) * w (ix2 k q) := by
  unfold k0_pay2 k0_pay1
  dsimp only
  refine (congrFun (matmul_zero_eq_dotGeneral _ none _ _) (ix2 p q)).trans ?_
  exact StackMember.dotGeneral_plain_apply (m := 5000) (n := 64) none (truncf .bf16 x bitsLt_bf16_f32) (truncf .bf16 w bitsLt_bf16_f32) p q

/-- Entry (p, q) of the body's second product. -/
theorem pay_ls_apply (x : Vec Ideal S5000x128 .f32) (w : Vec Ideal S128x64 .f32) (p : Fin 5000) (q : Fin 64) :
    k0_pay3 (F := Ideal) x w (ix2 p q) = ∑ k : Fin 128, x (ix2 p k) * w (ix2 k q) := by
  unfold k0_pay3 k0_pay1
  dsimp only
  refine (congrFun (matmul_zero_eq_dotGeneral _ none _ _) (ix2 p q)).trans ?_
  exact StackMember.dotGeneral_plain_apply (m := 5000) (n := 64) none (truncf .bf16 x bitsLt_bf16_f32) (truncf .bf16 w bitsLt_bf16_f32) p q

/-! ## The arrays as the region finds them, at their literal types -/

abbrev featArr (c : Dev nD) : FVec Ideal S100000x128 .f32 := V m c main_arg0
abbrev wMuArr (c : Dev nD) : FVec Ideal S128x64 .f32 := V m c main_arg1
abbrev wLsArr (c : Dev nD) : FVec Ideal S128x64 .f32 := V m c main_arg3

/-! ## The index maps over the grid -/

theorem origin : (![0, 0] : Fin 2 → Nat) = fun _ => 0 := funext fun a => by fin_cases a <;> rfl

/-- At point t the feature window and both output windows are at block (t, 0), the weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Every block of rows is some point's. -/
theorem idx_onto_mu : ∀ b : Fin 20, ∃ t : Fin cfg0.N, win0_3.index t = ![b.val, 0] :=
  (by decide +kernel : ∀ b : Fin 20, ∃ t : Fin grid0.N, win0_3.index t = ![b.val, 0])
theorem idx_onto_ls : ∀ b : Fin 20, ∃ t : Fin cfg0.N, win0_4.index t = ![b.val, 0] :=
  (by decide +kernel : ∀ b : Fin 20, ∃ t : Fin grid0.N, win0_4.index t = ![b.val, 0])

theorem point_lt (t : Fin cfg0.N) : t.val < 20 :=
  Nat.lt_of_lt_of_eq t.isLt (show cfg0.N = 20 from N_0)

/-! ## What point t writes back -/

/-- Point t's block of the first projection is block t of the whole product. -/
theorem flushed_mu (c : Dev nD) (t : Fin cfg0.N) :
    (dats m 0 c).flushed 3 t = ((cfg0.win 3).blk t).view.read (Elt Ideal) (proj (featArr m c) (wMuArr m c)) := by
  show (cfg0.win 3).cut (grid0.coords t) ((dats m 0 c).after 3 t) = _
  rw [after_mu]
  unfold projMu
  rw [View.canon_unit_zero origin]
  simp only [View.ld_unit_zero (S := S5000x128) origin, View.ld_unit_zero (S := S128x64) origin]
  obtain ⟨e00, e01, e10, e11, e20, e21, e30, e31, e40, e41⟩ := idx_facts t
  have ht := point_lt t
  funext j
  obtain ⟨p, q, rfl⟩ : ∃ (p : Fin 5000) (q : Fin 64), j = ix2 p q := ⟨j 0, j 1, eq_ix2 j⟩
  refine (pay_mu_apply (iblk m c 0 t) (iblk m c 1 t) p q).trans ?_
  have hr : 5000 * t.val + p.val < 100000 := by have := p.isLt; omega
  have hout : ((cfg0.win 3).blk t).view.emb (ix2 p q) = ix2 (⟨5000 * t.val + p.val, hr⟩ : Fin 100000) q := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  show _ = proj (featArr m c) (wMuArr m c) (((cfg0.win 3).blk t).view.emb (ix2 p q))
  rw [hout, proj_apply]
  refine Finset.sum_congr rfl fun k _ => ?_
  have hx : ((cfg0.win 0).blk t).view.emb (ix2 p k) = ix2 (⟨5000 * t.val + p.val, hr⟩ : Fin 100000) k := by
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  show featArr m c (((cfg0.win 0).blk t).view.emb (ix2 p k)) * wMuArr m c (((cfg0.win 1).blk t).view.emb (ix2 k q)) = _
  rw [hx, hw]

/-- Point t's block of the second projection likewise. -/
theorem flushed_ls (c : Dev nD) (t : Fin cfg0.N) :
    (dats m 0 c).flushed 4 t = ((cfg0.win 4).blk t).view.read (Elt Ideal) (proj (featArr m c) (wLsArr m c)) := by
  show (cfg0.win 4).cut (grid0.coords t) ((dats m 0 c).after 4 t) = _
  rw [after_ls]
  unfold projLogstd
  rw [View.canon_unit_zero origin]
  simp only [View.ld_unit_zero (S := S5000x128) origin, View.ld_unit_zero (S := S128x64) origin]
  obtain ⟨e00, e01, e10, e11, e20, e21, e30, e31, e40, e41⟩ := idx_facts t
  have ht := point_lt t
  funext j
  obtain ⟨p, q, rfl⟩ : ∃ (p : Fin 5000) (q : Fin 64), j = ix2 p q := ⟨j 0, j 1, eq_ix2 j⟩
  refine (pay_ls_apply (iblk m c 0 t) (iblk m c 2 t) p q).trans ?_
  have hr : 5000 * t.val + p.val < 100000 := by have := p.isLt; omega
  have hout : ((cfg0.win 4).blk t).view.emb (ix2 p q) = ix2 (⟨5000 * t.val + p.val, hr⟩ : Fin 100000) q := by
    funext a; apply Fin.ext
    match a with
    | ⟨0, _⟩ => show win0_4.index t (0 : Fin 2) * 5000 + 1 * p.val = 5000 * t.val + p.val; omega
    | ⟨1, _⟩ => show win0_4.index t (1 : Fin 2) * 64 + 1 * q.val = q.val; omega
  show _ = proj (featArr m c) (wLsArr m c) (((cfg0.win 4).blk t).view.emb (ix2 p q))
  rw [hout, proj_apply]
  refine Finset.sum_congr rfl fun k _ => ?_
  have hx : ((cfg0.win 0).blk t).view.emb (ix2 p k) = ix2 (⟨5000 * t.val + p.val, hr⟩ : Fin 100000) k := by
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  have hw : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 64 + 1 * q.val = q.val; omega
  show featArr m c (((cfg0.win 0).blk t).view.emb (ix2 p k)) * wLsArr m c (((cfg0.win 2).blk t).view.emb (ix2 k q)) = _
  rw [hx, hw]

/-! ## The blocks tile the rows -/

theorem mem_blk_mu (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v11_0).slice (win0_3.rect t)).set ↔ _
  rw [View.set_slice_whole, Rect.mem_set_unit]
  exact Iff.rfl

theorem mem_blk_ls (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v11_1).slice (win0_4.rect t)).set ↔ _
  rw [View.set_slice_whole, Rect.mem_set_unit]
  exact Iff.rfl

/-- Row r is in block r / 5000. -/
theorem cover_mu (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto_mu ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk_mu]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem cover_ls (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto_ls ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk_ls]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-! ## The arrays after the run -/

theorem final_mu (c : Dev nD) : (dats m 0 c).arrAt 3 cfg0.N = proj (featArr m c) (wMuArr m c) :=
  (dats m 0 c).arrAt_eq_of_cover 3 _ (fun t _ => flushed_mu m c t) cover_mu

theorem final_ls (c : Dev nD) : (dats m 0 c).arrAt 4 cfg0.N = proj (featArr m c) (wLsArr m c) :=
  (dats m 0 c).arrAt_eq_of_cover 4 _ (fun t _ => flushed_ls m c t) cover_ls

end Cert.KernelIdeal.Around

end
-- ==== Proof.Aggregate.lean ====
/-
  The graph aggregation that @main's host lines compute, as functions of arrays.

  From the 2 × E edge list: its two rows (sources, targets); the normalising factor of every node, the inverse square
  root of (the number of edges that target it, counted by scatter-adding ones, plus one for the self-loop). For a
  projection h of the node features and a bias b the result is

      scatter-add over edges e, at the target of e, of  h[source e] · (dinv[source e] · dinv[target e])
        +  h · (dinv · dinv)  +  b,

  a negative index being wrapped by the number of nodes before it is used to gather. The eighty-six lines after the
  pallas_call compute this twice, once for each projection, and read only the projections, the factors, the two rows
  and the biases; the fourteen lines before it compute the rows and the factors from the edge list.
-/
import proofs.«109742_j53120155517008_1_alg».proof.Proof.Gen.KernelIdeal.Launch
import Idealize.ShloMosaic.Lib.StableHlo.Run

set_option maxRecDepth 16384

noncomputable section

namespace Cert.KernelIdeal.Around

open Idealize.ShloMosaic Idealize.ShloMosaic.TcCoe Idealize.ShloMosaic.StableHlo
open Idealize.SL Idealize.SL.Sem
open Cert.KernelIdeal Cert.KernelIdeal.Gen

variable {F : FTy → Type} [FloatOps F]

/-! ## The functions -/

/-- The sources of the edges: row 0 of the edge list. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The targets of the edges: row 1 of the edge list. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Every node's normalising factor: the inverse square root of one plus the number of edges that target it. -/
def invSqrtDeg (dst : (⟨S1600000, .i32⟩ : BufTy).Contents (Elt F)) : (⟨S100000, .f32⟩ : BufTy).Contents (Elt F) :=
  Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))

/-- A node index wrapped: a negative one has the number of nodes added. -/
def wrapIdx (v : (⟨S1600000, .i32⟩ : BufTy).Contents (Elt F)) : (⟨S1600000, .i32⟩ : BufTy).Contents (Elt F) :=
  select (cmpi .slt v (broadcastInDim S1600000 ![] bcast_S_S1600000 (constantI S_ 32 0#32))) (addi v (broadcastInDim S1600000 ![] bcast_S_S1600000 (constantI S_ 32 100000#32))) v

/-- The aggregation of one projection. -/
def aggregate (h : (⟨S100000x64, .f32⟩ : BufTy).Contents (Elt F)) (dinv : (⟨S100000, .f32⟩ : BufTy).Contents (Elt F)) (src dst : (⟨S1600000, .i32⟩ : BufTy).Contents (Elt F)) (b : (⟨S64, .f32⟩ : BufTy).Contents (Elt F)) : (⟨S100000x64, .f32⟩ : BufTy).Contents (Elt F) :=
  addf (addf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst)
      (mulf (Host.gather gather_S100000x64_S1600000x1_S1600000x64_1_0_n_n_0_1_164 h (broadcastInDim S1600000x1 ![0] bcast_S1600000_S1600000x1_0 (wrapIdx src)))
        (broadcastInDim S1600000x64 ![0, 1] bcast_S1600000x1_S1600000x64_0_1 (broadcastInDim S1600000x1 ![0] bcast_S1600000_S1600000x1_0
          (mulf (Host.gather gather_S100000_S1600000x1_S1600000_n_0_n_n_0_1_1 dinv (broadcastInDim S1600000x1 ![0] bcast_S1600000_S1600000x1_0 (wrapIdx src)))
            (Host.gather gather_S100000_S1600000x1_S1600000_n_0_n_n_0_1_1 dinv (broadcastInDim S1600000x1 ![0] bcast_S1600000_S1600000x1_0 (wrapIdx dst))))))))
    (mulf h (broadcastInDim S100000x64 ![0, 1] bcast_S100000x1_S100000x64_0_1 (broadcastInDim S100000x1 ![0] bcast_S100000_S100000x1_0 (mulf dinv dinv)))))
    (broadcastInDim S100000x64 ![0, 1] bcast_S1x64_S100000x64_0_1 (broadcastInDim S1x64 ![1] bcast_S64_S1x64_1 b))

theorem aggregate_congr {h h' : (⟨S100000x64, .f32⟩ : BufTy).Contents (Elt F)} {dinv dinv' : (⟨S100000, .f32⟩ : BufTy).Contents (Elt F)} {src src' dst dst' : (⟨S1600000, .i32⟩ : BufTy).Contents (Elt F)} {b b' : (⟨S64, .f32⟩ : BufTy).Contents (Elt F)}
    (eh : h = h') (ed : dinv = dinv') (es : src = src') (et : dst = dst') (eb : b = b') :
    aggregate h dinv src dst b = aggregate h' dinv' src' dst' b' := by
  subst eh ed es et eb; rfl

/-! ## The fourteen lines before the region -/

theorem head_src (Vm : Valuation τ sig (Elt F)) :
    StableHlo.after hostOps0 Vm (Proc.devRef .tc main_v1) = srcRow (Vm (Proc.devRef .tc main_arg5)) := by
  after_results; rfl

theorem head_dst (Vm : Valuation τ sig (Elt F)) :
    StableHlo.after hostOps0 Vm (Proc.devRef .tc main_v3) = dstRow (Vm (Proc.devRef .tc main_arg5)) := by
  after_results; rfl

theorem head_dinv (Vm : Valuation τ sig (Elt F)) :
    StableHlo.after hostOps0 Vm (Proc.devRef .tc main_v10) = invSqrtDeg (dstRow (Vm (Proc.devRef .tc main_arg5))) := by
  after_results; rfl

/-! ## The eighty-six lines after the region -/

set_option maxHeartbeats 40000000 in
/-- The first result, from whatever the later lines find in the buffers they read. -/
theorem tail_first (Vv : Valuation τ sig (Elt F)) :
    StableHlo.after hostOps1 Vv (Proc.devRef .tc main_v47)
      = aggregate (Vv (Proc.devRef .tc main_v11_0)) (Vv (Proc.devRef .tc main_v10)) (Vv (Proc.devRef .tc main_v1)) (Vv (Proc.devRef .tc main_v3)) (Vv (Proc.devRef .tc main_arg2)) := by
  after_results_simp <;> rfl

set_option maxHeartbeats 40000000 in
/-- The second result likewise. -/
theorem tail_second (Vv : Valuation τ sig (Elt F)) :
    StableHlo.after hostOps1 Vv (Proc.devRef .tc main_v83)
      = aggregate (Vv (Proc.devRef .tc main_v11_1)) (Vv (Proc.devRef .tc main_v10)) (Vv (Proc.devRef .tc main_v1)) (Vv (Proc.devRef .tc main_v3)) (Vv (Proc.devRef .tc main_arg4)) := by
  after_results_simp <;> rfl

end Cert.KernelIdeal.Around

end
-- ==== Proof.IdealValue.lean ====
/-
  The idealized kernel's run with its two results named: each is the aggregation of the whole product of the node
  features with a weight matrix.

  The run's post gives every buffer that bypasses the region as the eighty-six later lines leave it. Those lines read the
  two projection arrays, which the pipeline leaves at the whole products, and buffers the first fourteen lines wrote (the
  two rows of the edge list and the normalising factors), and the biases; so each result is `gcn` of four arguments.
-/
import proofs.«109742_j53120155517008_1_alg».proof.Proof.IdealFrame
import proofs.«109742_j53120155517008_1_alg».proof.Proof.Projection
import proofs.«109742_j53120155517008_1_alg».proof.Proof.Aggregate

set_option maxRecDepth 16384

noncomputable section

namespace Cert.KernelIdeal.Around

open Idealize.ShloMosaic Idealize.ShloMosaic.TcCoe
open Idealize.SL Idealize.SL.Sem
open Idealize.ShloMosaic.Rounds
open Idealize.ShloMosaic.Pipeline (Dat Cfg Window)
open Cert.KernelIdeal Cert.KernelIdeal.Gen

/-- One graph-convolution output: the aggregation of the projected features. -/
def gcn (x : FVec Ideal S100000x128 .f32) (w : FVec Ideal S128x64 .f32) (b : FVec Ideal S64 .f32)
    (e : (⟨S2x1600000, .i32⟩ : BufTy).Contents (Elt Ideal)) : FVec Ideal S100000x64 .f32 :=
  aggregate (proj x w) (invSqrtDeg (dstRow e)) (srcRow e) (dstRow e) b

variable (m : (ℓ : Loc nD τ sig) → Buf (Elt Ideal) ℓ) (ρ : Dev nD → PrngReg)

/-- What the region is entered with in the buffers the later lines read. -/
theorem entry_src (c : Dev nD) : V m c main_v1 = srcRow (m ((c.tc : Thread nD τ).loc main_arg5)) := by
  show StableHlo.after hostOps0 (fun b => m (c, b)) (Proc.devRef .tc main_v1) = _
  exact head_src _
theorem entry_dst (c : Dev nD) : V m c main_v3 = dstRow (m ((c.tc : Thread nD τ).loc main_arg5)) := by
  show StableHlo.after hostOps0 (fun b => m (c, b)) (Proc.devRef .tc main_v3) = _
  exact head_dst _
theorem entry_dinv (c : Dev nD) : V m c main_v10 = invSqrtDeg (dstRow (m ((c.tc : Thread nD τ).loc main_arg5))) := by
  show StableHlo.after hostOps0 (fun b => m (c, b)) (Proc.devRef .tc main_v10) = _
  exact head_dinv _

set_option maxHeartbeats 40000000 in
/-- The first result at the end of @main. -/
theorem tail_mu (c : Dev nD) :
    Pipeline.afterTail₀ cfgs (dats m) 0 (V0 m) [hostOps1] c main_v47
      = gcn (m ((c.tc : Thread nD τ).loc main_arg0)) (m ((c.tc : Thread nD τ).loc main_arg1)) (m ((c.tc : Thread nD τ).loc main_arg2)) (m ((c.tc : Thread nD τ).loc main_arg5)) := by
  unfold Pipeline.afterTail₀
  show StableHlo.after hostOps1 _ (Proc.devRef .tc main_v47) = _
  refine (tail_first _).trans ?_
  unfold gcn
  refine aggregate_congr ?_ ?_ ?_ ?_ ?_
  · refine (Pipeline.withArrays_arr spec0 launch0.win.arr_inj c _ _ 3).trans ((final_mu m c).trans ?_)
    exact congr (congrArg proj (V_main_arg0 m c)) (V_main_arg1 m c)
  · exact (Pipeline.withArrays_of_ne _ c (V0 m c) _ main_v10 (by decide)).trans (entry_dinv m c)
  · exact (Pipeline.withArrays_of_ne _ c (V0 m c) _ main_v1 (by decide)).trans (entry_src m c)
  · exact (Pipeline.withArrays_of_ne _ c (V0 m c) _ main_v3 (by decide)).trans (entry_dst m c)
  · exact (Pipeline.withArrays_of_ne _ c (V0 m c) _ main_arg2 (by decide)).trans (V_main_arg2 m c)

set_option maxHeartbeats 40000000 in
/-- The second result at the end of @main. -/
theorem tail_ls (c : Dev nD) :
    Pipeline.afterTail₀ cfgs (dats m) 0 (V0 m) [hostOps1] c main_v83
      = gcn (m ((c.tc : Thread nD τ).loc main_arg0)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v83) = _
  refine (tail_second _).trans ?_
  unfold gcn
  refine aggregate_congr ?_ ?_ ?_ ?_ ?_
  · refine (Pipeline.withArrays_arr spec0 launch0.win.arr_inj c _ _ 4).trans ((final_ls m c).trans ?_)
    exact congr (congrArg proj (V_main_arg0 m c)) (V_main_arg3 m c)
  · exact (Pipeline.withArrays_of_ne _ c (V0 m c) _ main_v10 (by decide)).trans (entry_dinv m c)
  · exact (Pipeline.withArrays_of_ne _ c (V0 m c) _ main_v1 (by decide)).trans (entry_src m c)
  · exact (Pipeline.withArrays_of_ne _ c (V0 m c) _ main_v3 (by decide)).trans (entry_dst m c)
  · exact (Pipeline.withArrays_of_ne _ c (V0 m c) _ main_arg4 (by decide)).trans (V_main_arg4 m c)

set_option maxHeartbeats 40000000 in
/-- Every weakly fair execution of the idealized kernel's @main terminates with the two results at the two
    graph-convolution outputs and the arguments as launched. -/
theorem run_value : θ_run defs (onTc (τ := τ) (main (F := Ideal))) ⟨m, fun _ => 0, ρ⟩ (fun r => ∀ c : Dev nD,
      r.2.mem ((c.tc : Thread nD τ).loc main_v47) = gcn (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v83) = gcn (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v47 (Pipeline.mem_restRefs_of main_v47 (by decide) (by decide))).trans (tail_mu m c),
     ((h c).2 main_v83 (Pipeline.mem_restRefs_of main_v83 (by decide) (by decide))).trans (tail_ls m c),
     args_of_post m r h c⟩) (run_main m ρ)

end Cert.KernelIdeal.Around

end
-- ==== Proof.RefValue.lean ====
/-
  The reference's two results are the same two graph-convolution outputs.

  The reference computes each projection as one product on the host and then applies, line for line, the operations the
  kernel's program applies after its pallas_call; its composed term for a result is therefore `gcn` of the same four
  arguments, the two programs' shape records and side conditions differing only in the proofs they carry.
-/
import proofs.«109742_j53120155517008_1_alg».proof.Proof.Gen.ReferenceIdeal.Run
import proofs.«109742_j53120155517008_1_alg».proof.Proof.IdealValue

set_option maxRecDepth 16384

noncomputable section

namespace Cert.ReferenceIdeal.Same

open Idealize.ShloMosaic Idealize.ShloMosaic.TcCoe
open Idealize.SL Idealize.SL.Sem
open Cert.ReferenceIdeal Cert.ReferenceIdeal.Gen
open Cert.KernelIdeal.Around (gcn aggregate proj invSqrtDeg wrapIdx srcRow dstRow)

variable (m : (ℓ : Loc nD τ sig) → Buf (Elt Ideal) ℓ)

set_option maxHeartbeats 4000000 in
theorem first_eq (c : Dev nD) :
    Cert.ReferenceIdeal.Value.res_main_v47 (F := Ideal) m c
      = gcn (m ((c.tc : Thread nD τ).loc main_arg0)) (m ((c.tc : Thread nD τ).loc main_arg1)) (m ((c.tc : Thread nD τ).loc main_arg2)) (m ((c.tc : Thread nD τ).loc main_arg5)) := by
  unfold Cert.ReferenceIdeal.Value.res_main_v47 gcn aggregate proj invSqrtDeg wrapIdx srcRow dstRow
  rfl

set_option maxHeartbeats 4000000 in
theorem second_eq (c : Dev nD) :
    Cert.ReferenceIdeal.Value.res_main_v84 (F := Ideal) m c
      = gcn (m ((c.tc : Thread nD τ).loc main_arg0)) (m ((c.tc : Thread nD τ).loc main_arg3)) (m ((c.tc : Thread nD τ).loc main_arg4)) (m ((c.tc : Thread nD τ).loc main_arg5)) := by
  unfold Cert.ReferenceIdeal.Value.res_main_v84 gcn aggregate proj invSqrtDeg wrapIdx srcRow dstRow
  rfl

end Cert.ReferenceIdeal.Same

end
-- ==== Proof.lean ====
/-
  A two-headed graph convolution: node features x (100000 × 128) are projected by two weight matrices (128 × 64), and
  each projection h is aggregated over 1.6 million edges with symmetric normalisation and a self-loop,

      out = Σ_{edges e into i} h[src e] · dinv[src e] · dinv[dst e]  +  h[i] · dinv[i]²  +  bias,      dinv = (1 + in-degree)^(-1/2).

  The kernel's program computes both projections in one pallas_call (blocks of 5000 rows, the formats narrowed to bf16,
  accumulated in f32) and then aggregates on the host; the reference computes each projection as one host product and
  aggregates with the same host operations.

  Frames. The kernel's @main is host lines, the region, host lines: its run is the library's frame run of a region
  continued by host lines, over proof data that say what each staging buffer holds after the body (Proof/…HostSide,
  …Body, …Frame: one text at any float instance, read at the word-level instance for the kernel as printed and at the
  ideal instance for its idealization). The reference has no kernel: its frame is its run with the results dropped.

  Preservation. The ideal pass rewrote nothing, so there is nothing to state.

  Equality over the extended reals. At the ideal values narrowing a format is the identity and a product accumulated
  from zero is the plain product, so block t of a projection array is block t of the whole product x · W, and the twenty
  blocks tile the rows (Proof/Projection). The host lines after the region are one function of the projection, the
  normalising factors, the two rows of the edge list and the bias (Proof/Aggregate), and the reference applies the same
  function to its host product (Proof/RefValue). No law of the extended reals beyond that is used, so the precondition
  is never opened.
-/
import proofs.«109742_j53120155517008_1_alg».proof.Defs
import proofs.«109742_j53120155517008_1_alg».proof.Proof.Gen.Kernel
import proofs.«109742_j53120155517008_1_alg».proof.Proof.Gen.KernelIdeal
import proofs.«109742_j53120155517008_1_alg».proof.Proof.Gen.ReferenceIdeal
import proofs.«109742_j53120155517008_1_alg».proof.Proof.Gen.Pre_finite_inputs
import proofs.«109742_j53120155517008_1_alg».proof.Proof.Gen.ReferenceIdeal.Run
import proofs.«109742_j53120155517008_1_alg».proof.Proof.BitsFrame
import proofs.«109742_j53120155517008_1_alg».proof.Proof.IdealValue
import proofs.«109742_j53120155517008_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Around.frame m ρ

theorem frame_kernelIdeal : Cert.frame_KernelIdeal := fun m ρ _ => Cert.KernelIdeal.Around.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the two graph-convolution outputs of the same arguments. -/
theorem algebraic : Cert.algebraic_KernelIdeal_ReferenceIdeal := by
  intro m ρ m' ρ' _ hagree
  refine ⟨_, _, Cert.KernelIdeal.Around.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Same.first_eq m' c).trans ?_
    obtain ⟨a0, a1, a2, a3, a4, a5⟩ := hagree c
    rw [a0, a1, a2, a5]
  · refine (Cert.ReferenceIdeal.Same.second_eq m' c).trans ?_
    obtain ⟨a0, a1, a2, a3, a4, a5⟩ := hagree c
    rw [a0, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
